-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x1024 : Shape := ⟨2, ![512, 1024]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x1024 .f32) (main_arg8 : FVec F S512 .f32) (main_arg9 : FVec F S512x1024 .f32) (main_arg10 : FVec F S512 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x512 .f32) (main_arg1 : FVec F S16384x512 .f32) (main_arg2 : FVec F S16384x512 .f32) (main_arg3 : FVec F S512x1024 .f32) (main_arg4 : FVec F S512 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_v13 main_v16
-- ==== Kernel.lean ====
abbrev S16384x512 : Shape := ⟨2, ![16384, 512]⟩
abbrev S512x1024 : Shape := ⟨2, ![512, 1024]⟩
abbrev S512 : Shape := ⟨1, ![512]⟩
abbrev S2048x1024 : Shape := ⟨2, ![2048, 1024]⟩
abbrev S2048 : Shape := ⟨1, ![2048]⟩
abbrev S2048x512 : Shape := ⟨2, ![2048, 512]⟩
abbrev S512x2048 : Shape := ⟨2, ![512, 2048]⟩
abbrev S1x2048 : Shape := ⟨2, ![1, 2048]⟩
abbrev S512x512 : Shape := ⟨2, ![512, 512]⟩

abbrev nBuf : Space → Nat
  | .hbm => 20
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S2048x1024, .f32⟩
  | .hbm, ⟨12, _⟩ => ⟨S2048, .f32⟩
  | .hbm, ⟨13, _⟩ => ⟨S2048x512, .f32⟩
  | .hbm, ⟨14, _⟩ => ⟨S512x2048, .f32⟩
  | .hbm, ⟨15, _⟩ => ⟨S2048x512, .f32⟩
  | .hbm, ⟨16, _⟩ => ⟨S512x2048, .f32⟩
  | .hbm, ⟨17, _⟩ => ⟨S1x2048, .f32⟩
  | .hbm, ⟨18, _⟩ => ⟨S16384x512, .f32⟩
  | .hbm, ⟨19, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S512x1024_S512x1024_S512x1024_S512x1024_S2048x1024_d0 : Shape.Concatenates [S512x1024, S512x1024, S512x1024, S512x1024] S2048x1024 0
  concatenates_S512_S512_S512_S512_S2048_d0 : Shape.Concatenates [S512, S512, S512, S512] S2048 0
  slices_S2048x1024_S2048x512_0_0 : S2048x1024.Slices ![0, 0] S2048x512
  transposes_S2048x512_S512x2048_1_0 : S2048x512.Transposes [1, 0] S512x2048
  slices_S2048x1024_S2048x512_0_512 : S2048x1024.Slices ![0, 512] S2048x512
  shapeCasts_S2048_S1x2048 : S2048.ShapeCasts S1x2048
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .f32 = 32 ∨ (Rect.block (s := S512x2048) S512x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S16384x512.size a
  hwx0_7 : ∀ i : grid0.Coords, EltTy.bits .f32 = 32 ∨ (Rect.block (s := S16384x512) S512x512.size (cc0_transform_7 i) (hinb0_7 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x1024 : Shape := ⟨2, ![512, 1024]⟩
abbrev S512 : Shape := ⟨1, ![512]⟩
abbrev S16384x1024 : Shape := ⟨2, ![16384, 1024]⟩
abbrev S2048x1024 : Shape := ⟨2, ![2048, 1024]⟩
abbrev S2048 : Shape := ⟨1, ![2048]⟩
abbrev S1024x2048 : Shape := ⟨2, ![1024, 2048]⟩
abbrev S16384x2048 : Shape := ⟨2, ![16384, 2048]⟩
abbrev S1x2048 : Shape := ⟨2, ![1, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S16384x1024, .f32⟩
  | .hbm, ⟨12, _⟩ => ⟨S2048x1024, .f32⟩
  | .hbm, ⟨13, _⟩ => ⟨S2048, .f32⟩
  | .hbm, ⟨14, _⟩ => ⟨S1024x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  concatenates_S512x1024_S512x1024_S512x1024_S512x1024_S2048x1024_d0 : Shape.Concatenates [S512x1024, S512x1024, S512x1024, S512x1024] S2048x1024 0
  concatenates_S512_S512_S512_S512_S2048_d0 : Shape.Concatenates [S512, S512, S512, S512] S2048 0
  transposes_S2048x1024_S1024x2048_1_0 : S2048x1024.Transposes [1, 0] S1024x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  bcast_S_S16384x512 : S_.BroadcastsInDim S16384x512 (![] : Fin 0 → Fin S16384x512.rank)
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  dot_S16384x1024_S1024x2048_S16384x2048_1_0_0_1_n_n_wf : DotDims.WF S16384x1024 S1024x2048 S16384x2048 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf

class Facts : Prop extends Facts₀ where

variable [Facts]
-- ==== Proof.KernelEntry.lean ====
/-
  What the one region of the kernel's @main finds when it is entered, and what a run of the region that
  leaves every window's array as the proof data computes says about @main's arguments.

  Before the region @main stacks the four gates' weights into one [2048, 1024] array and their biases into one
  [2048] vector, cuts the stacked weight into its input half and its recurrent half, transposes each to [512, 2048]
  and lays the bias out as one row. None of these seven operations writes an argument, so the region finds every
  argument as launched (`entry_unwritten`); the three batch-tiled arguments are staged by windows 0, 1 and 2, the
  other eight are touched by nothing in the region. Each window's block at a grid point is read off the array as the
  region finds it (`blockAt`), and an input window's staging buffer holds that block at every point, fetched there
  or not, because the body leaves inputs in place.
-/
import proofs.«150263_j39015482916921_1_alg».proof.Proof.Gen.Kernel.Launch
import proofs.«150263_j39015482916921_1_alg».proof.Proof.Gen.Kernel.Points
import Idealize.ShloMosaic.Lib.Pipeline.FrameBody
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: the launch contents after the seven host operations. -/
abbrev entry (c : Dev nD) (b : Ref sig .tc) : Buf (Elt F) ((c : Thread nD τ).loc b) := StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the region. -/
theorem main_upto (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer that is none of the seven results of the host operations is found as launched. -/
theorem entry_unwritten (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) : entry m c b = m ((c : Thread nD τ).loc b) :=
  StableHlo.after_of_forall_not_mem (b := Proc.devRef .tc b) _ _ (List.forall_iff_forall_mem.mp (by
    simp only [hostOps0, List.Forall, StableHlo.unary_writes, StableHlo.reshape_writes, StableHlo.nary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! An input window's current staging buffer holds its block at every point, for any proof data whose array is the
    region-entry contents and whose body leaves the block in place: fetched there it is the block; unfetched, the block
    index has not moved since the point before. One statement per input window (the block's type is the window's own). -/

/-- Window 0 (step-input rows). -/
theorem before_in0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Window 1 (previous-hidden rows). -/
theorem before_in1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Window 2 (previous-cell rows). -/
theorem before_in2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Window 3 (input-half weight). -/
theorem before_in3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Window 4 (recurrent-half weight). -/
theorem before_in4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Window 5 (bias row). -/
theorem before_in5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

end Cert.Kernel.Cell

end
-- ==== Proof.KernelBody.lean ====
/-
  The kernel body on one batch tile.

  The body loads the tile's 512 rows of the step's input, of the previous hidden state and of the previous cell state,
  the two transposed halves of the stacked weight and the bias row, each whole; it computes the tile's next hidden
  state and next cell state (the generated payload terms `k0_pay3` and `k0_pay2` of those six loads) and stores each
  over its whole output buffer. It also reads each output buffer once before overwriting it and uses nothing of what
  it read. So whatever the two output buffers held, after the body the six input buffers hold what they held and the
  output buffers hold `hiddenOut` and `cellOut` of the six input blocks.
-/
import proofs.«150263_j39015482916921_1_alg».proof.Proof.Gen.Kernel.Skeleton
import proofs.«150263_j39015482916921_1_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

/-- A whole [512, 512] tile. -/
abbrev tileRect : Rect S512x512 := Rect.unit (s := S512x512) ![0, 0] S512x512.size inb_S512x512_S512x512_0_0
/-- A whole transposed half of the stacked weight. -/
abbrev weightRect : Rect S512x2048 := Rect.unit (s := S512x2048) ![0, 0] S512x2048.size inb_S512x2048_S512x2048_0_0
/-- The whole bias row. -/
abbrev biasRect : Rect S1x2048 := Rect.unit (s := S1x2048) ![0, 0] S1x2048.size inb_S1x2048_S1x2048_0_0

/-! ## What the body leaves in the two output buffers -/

/-- The next-hidden-state buffer after the body: its one store, of the payload `k0_pay3` of the six loaded blocks. -/
def hiddenOut (x0 x1 x2 : Vec F S512x512 .f32) (x3 x4 : Vec F S512x2048 .f32) (x5 : Vec F S1x2048 .f32) : Vec F S512x512 .f32 :=
  View.canon [⟨tileRect, k0_pay3 (View.ld x0 tileRect) (View.ld x1 tileRect) (View.ld x3 weightRect) (View.ld x4 weightRect) (View.ld x5 biasRect) (View.ld x2 tileRect)⟩]

/-- The next-cell-state buffer after the body: its one store, of the payload `k0_pay2`. -/
def cellOut (x0 x1 x2 : Vec F S512x512 .f32) (x3 x4 : Vec F S512x2048 .f32) (x5 : Vec F S1x2048 .f32) : Vec F S512x512 .f32 :=
  View.canon [⟨tileRect, k0_pay2 (View.ld x0 tileRect) (View.ld x1 tileRect) (View.ld x3 weightRect) (View.ld x4 weightRect) (View.ld x5 biasRect) (View.ld x2 tileRect)⟩]

/-- One store of a whole tile covers the buffer. -/
theorem tile_cover (p0 : Vec F S512x512 .f32) (y : S512x512.Idx) :
    ∃ pc ∈ ([⟨tileRect, p0⟩] : List (View.Piece (Elt F) S512x512 .f32)), y ∈ pc.1.set :=
  View.cover_of_tiled [⟨tileRect, p0⟩] S512x512.size (by rfl) y

/-! ## The body's triple -/

set_option maxHeartbeats 1000000 in
/-- The body on whole staging memrefs, the six inputs' at contents `x0 … x5` and the two outputs' at anything, runs to
    the continuation holding the inputs' as they were and the outputs' at `hiddenOut` and `cellOut` of the inputs'. -/
theorem sound_kernel (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S512x2048 .f32) (harg4 : arg4.IsWhole)
    (arg5 : Memref sig .tc .vmem S512x2048 .f32) (harg5 : arg5.IsWhole) (arg6 : Memref sig .tc .vmem S1x2048 .f32) (harg6 : arg6.IsWhole)
    (arg7 : Memref sig .tc .vmem S512x512 .f32) (harg7 : arg7.IsWhole) (arg8 : Memref sig .tc .vmem S512x512 .f32) (harg8 : arg8.IsWhole)
    (x0 x1 x2 : Vec F S512x512 .f32) (x3 x4 : Vec F S512x2048 .f32) (x5 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hiddenOut x0 x1 x2 x3 x4 x5) ∗ owns (c : Thread nD τ) arg8 fullShare (cellOut x0 x1 x2 x3 x4 x5)) -∗ K ⟨⟩))
      ⊢ wp frame (wpE (defs₀ (F := F)) Variants.none c none) E (cc0_lstm_kernel i arg1 harg1 arg2 harg2 arg3 harg3 arg4 harg4 arg5 harg5 arg6 harg6 arg7 harg7 arg8 harg8) K := by
  simp only [cc0_lstm_kernel_eq_skeleton]; unfold cc0_lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (tile_cover _)
  iexists _; isplitr
  swap; · iexact H7
  ipureintro
  try dsimp only
  exact View.read_writes_eq_canon _ _ _ (tile_cover _)

end Cert.Kernel.Cell

end
-- ==== Proof.KernelRun.lean ====
/-
  The region's run, and the frame of the kernel's @main.

  The proof data of the one pipeline: every window's array is what the region finds; after the body at grid point `t`
  each of the six input windows' buffers still holds its block, and the two output windows' buffers hold the next
  hidden state and the next cell state of the tile, as functions of the six input blocks at `t`. The body at any point
  is the tile's triple at those blocks, so every weakly fair execution of @main terminates with every window's array
  at what the proof data computes and every other unscoped buffer as the region found it; read at @main's eleven
  arguments, which nothing writes, that is the frame.
-/
import proofs.«150263_j39015482916921_1_alg».proof.Proof.KernelEntry
import proofs.«150263_j39015482916921_1_alg».proof.Proof.KernelBody

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core `c`: the arrays as the region finds them; after the body at point `t` each input's buffer at
    its block and the outputs' at the tile's next hidden and next cell state; the class invariant; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenOut (blockAt m c 0 t) (blockAt m c 1 t) (blockAt m c 2 t) (blockAt m c 3 t) (blockAt m c 4 t) (blockAt m c 5 t)
    | ⟨7, _⟩ => cellOut (blockAt m c 0 t) (blockAt m c 1 t) (blockAt m c 2 t) (blockAt m c 3 t) (blockAt m c 4 t) (blockAt m c 5 t)
  Φ _ := Pipeline.ΦA spec0 c
  q _ := fullShare
  owed _ := 0

/-- The proof data's arrays are the region-entry contents. -/
theorem A_eq (c : Dev nD) (w : Fin cfg0.W) : (dats m 0 c).A w = entry m c (Pipeline.arrRef spec0 w) := by
  dsimp only [dats]

/-- What the body leaves, window by window. -/
theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = hiddenOut (blockAt m c 0 t) (blockAt m c 1 t) (blockAt m c 2 t) (blockAt m c 3 t) (blockAt m c 4 t) (blockAt m c 5 t) := by dsimp only [dats]
theorem after7 (c : Dev nD) (t : Fin cfg0.N) : (dats m 0 c).after 7 t = cellOut (blockAt m c 0 t) (blockAt m c 1 t) (blockAt m c 2 t) (blockAt m c 3 t) (blockAt m c 4 t) (blockAt m c 5 t) := by dsimp only [dats]

/-- Each input's current staging buffer holds its block at every point, fetched there or not. -/
theorem before0 (c : Dev nD) (t : Fin cfg0.N) (d) : (dats m 0 c).before 0 t d = blockAt m c 0 t :=
  before_in0 m (dats m 0 c) (A_eq m c 0) (after0 m c) t d
theorem before1 (c : Dev nD) (t : Fin cfg0.N) (d) : (dats m 0 c).before 1 t d = blockAt m c 1 t :=
  before_in1 m (dats m 0 c) (A_eq m c 1) (after1 m c) t d
theorem before2 (c : Dev nD) (t : Fin cfg0.N) (d) : (dats m 0 c).before 2 t d = blockAt m c 2 t :=
  before_in2 m (dats m 0 c) (A_eq m c 2) (after2 m c) t d
theorem before3 (c : Dev nD) (t : Fin cfg0.N) (d) : (dats m 0 c).before 3 t d = blockAt m c 3 t :=
  before_in3 m (dats m 0 c) (A_eq m c 3) (after3 m c) t d
theorem before4 (c : Dev nD) (t : Fin cfg0.N) (d) : (dats m 0 c).before 4 t d = blockAt m c 4 t :=
  before_in4 m (dats m 0 c) (A_eq m c 4) (after4 m c) t d
theorem before5 (c : Dev nD) (t : Fin cfg0.N) (d) : (dats m 0 c).before 5 t d = blockAt m c 5 t :=
  before_in5 m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the tile's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has every window's array at what the proof data computes and every other unscoped buffer as the region
    found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_upto m Variants.none) (hA := A_eq m) (hΦ := fun _ _ => rfl)

/-- In a final state of that run @main's eleven arguments are as launched: the three a window stages by the library's
    reading of an input's array, the other eight because nothing in the region touches them, each then because no host
    operation writes it. -/
theorem args_kept (r : PUnit × MemSt nD τ sig (Elt F)) (h : Pipeline.FramePost cfgs (dats m) 0 (entry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨
    ((h c).1 0).trans (((dats m 0 c).arrAt_in 0 rfl _).trans ((A_eq m c 0).trans (entry_unwritten m c main_arg0 (by decide) (by decide) (by decide) (by decide) (by decide) (by decide) (by decide)))),
    ((h c).1 1).trans (((dats m 0 c).arrAt_in 1 rfl _).trans ((A_eq m c 1).trans (entry_unwritten m c main_arg1 (by decide) (by decide) (by decide) (by decide) (by decide) (by decide) (by decide)))),
    ((h c).1 2).trans (((dats m 0 c).arrAt_in 2 rfl _).trans ((A_eq m c 2).trans (entry_unwritten m c main_arg2 (by decide) (by decide) (by decide) (by decide) (by decide) (by decide) (by decide)))),
    ((h c).2 main_arg3 (Pipeline.mem_restRefs_of main_arg3 (by decide) (by decide))).trans (entry_unwritten m c main_arg3 (by decide) (by decide) (by decide) (by decide) (by decide) (by decide) (by decide)),
    ((h c).2 main_arg4 (Pipeline.mem_restRefs_of main_arg4 (by decide) (by decide))).trans (entry_unwritten m c main_arg4 (by decide) (by decide) (by decide) (by decide) (by decide) (by decide) (by decide)),
    ((h c).2 main_arg5 (Pipeline.mem_restRefs_of main_arg5 (by decide) (by decide))).trans (entry_unwritten m c main_arg5 (by decide) (by decide) (by decide) (by decide) (by decide) (by decide) (by decide)),
    ((h c).2 main_arg6 (Pipeline.mem_restRefs_of main_arg6 (by decide) (by decide))).trans (entry_unwritten m c main_arg6 (by decide) (by decide) (by decide) (by decide) (by decide) (by decide) (by decide)),
    ((h c).2 main_arg7 (Pipeline.mem_restRefs_of main_arg7 (by decide) (by decide))).trans (entry_unwritten m c main_arg7 (by decide) (by decide) (by decide) (by decide) (by decide) (by decide) (by decide)),
    ((h c).2 main_arg8 (Pipeline.mem_restRefs_of main_arg8 (by decide) (by decide))).trans (entry_unwritten m c main_arg8 (by decide) (by decide) (by decide) (by decide) (by decide) (by decide) (by decide)),
    ((h c).2 main_arg9 (Pipeline.mem_restRefs_of main_arg9 (by decide) (by decide))).trans (entry_unwritten m c main_arg9 (by decide) (by decide) (by decide) (by decide) (by decide) (by decide) (by decide)),
    ((h c).2 main_arg10 (Pipeline.mem_restRefs_of main_arg10 (by decide) (by decide))).trans (entry_unwritten m c main_arg10 (by decide) (by decide) (by decide) (by decide) (by decide) (by decide) (by decide))⟩

/-- The frame: @main runs to the end and leaves its eleven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m r h c) (run_main m ρ)

end Cert.Kernel.Cell

end
-- ==== Proof.KernelIdealEntry.lean ====
/-
  What the one region of the idealized kernel's @main finds when it is entered, and what a run of the region that
  leaves every window's array as the proof data computes says about @main's arguments.

  Before the region @main stacks the four gates' weights into one [2048, 1024] array and their biases into one
  [2048] vector, cuts the stacked weight into its input half and its recurrent half, transposes each to [512, 2048]
  and lays the bias out as one row. None of these seven operations writes an argument, so the region finds every
  argument as launched (`entry_unwritten`); the three batch-tiled arguments are staged by windows 0, 1 and 2, the
  other eight are touched by nothing in the region. Each window's block at a grid point is read off the array as the
  region finds it (`blockAt`), and an input window's staging buffer holds that block at every point, fetched there
  or not, because the body leaves inputs in place.
-/
import proofs.«150263_j39015482916921_1_alg».proof.Proof.Gen.KernelIdeal.Launch
import proofs.«150263_j39015482916921_1_alg».proof.Proof.Gen.KernelIdeal.Points
import Idealize.ShloMosaic.Lib.Pipeline.FrameBody
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: the launch contents after the seven host operations. -/
abbrev entry (c : Dev nD) (b : Ref sig .tc) : Buf (Elt F) ((c : Thread nD τ).loc b) := StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the region. -/
theorem main_upto (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer that is none of the seven results of the host operations is found as launched. -/
theorem entry_unwritten (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) : entry m c b = m ((c : Thread nD τ).loc b) :=
  StableHlo.after_of_forall_not_mem (b := Proc.devRef .tc b) _ _ (List.forall_iff_forall_mem.mp (by
    simp only [hostOps0, List.Forall, StableHlo.unary_writes, StableHlo.reshape_writes, StableHlo.nary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! An input window's current staging buffer holds its block at every point, for any proof data whose array is the
    region-entry contents and whose body leaves the block in place: fetched there it is the block; unfetched, the block
    index has not moved since the point before. One statement per input window (the block's type is the window's own). -/

/-- Window 0 (step-input rows). -/
theorem before_in0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Window 1 (previous-hidden rows). -/
theorem before_in1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Window 2 (previous-cell rows). -/
theorem before_in2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Window 3 (input-half weight). -/
theorem before_in3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Window 4 (recurrent-half weight). -/
theorem before_in4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Window 5 (bias row). -/
theorem before_in5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

end Cert.KernelIdeal.Cell

end
-- ==== Proof.KernelIdealBody.lean ====
/-
  The kernel body on one batch tile.

  The body loads the tile's 512 rows of the step's input, of the previous hidden state and of the previous cell state,
  the two transposed halves of the stacked weight and the bias row, each whole; it computes the tile's next hidden
  state and next cell state (the generated payload terms `k0_pay3` and `k0_pay2` of those six loads) and stores each
  over its whole output buffer. It also reads each output buffer once before overwriting it and uses nothing of what
  it read. So whatever the two output buffers held, after the body the six input buffers hold what they held and the
  output buffers hold `hiddenOut` and `cellOut` of the six input blocks.
-/
import proofs.«150263_j39015482916921_1_alg».proof.Proof.Gen.KernelIdeal.Skeleton
import proofs.«150263_j39015482916921_1_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

/-- A whole [512, 512] tile. -/
abbrev tileRect : Rect S512x512 := Rect.unit (s := S512x512) ![0, 0] S512x512.size inb_S512x512_S512x512_0_0
/-- A whole transposed half of the stacked weight. -/
abbrev weightRect : Rect S512x2048 := Rect.unit (s := S512x2048) ![0, 0] S512x2048.size inb_S512x2048_S512x2048_0_0
/-- The whole bias row. -/
abbrev biasRect : Rect S1x2048 := Rect.unit (s := S1x2048) ![0, 0] S1x2048.size inb_S1x2048_S1x2048_0_0

/-! ## What the body leaves in the two output buffers -/

/-- The next-hidden-state buffer after the body: its one store, of the payload `k0_pay3` of the six loaded blocks. -/
def hiddenOut (x0 x1 x2 : Vec F S512x512 .f32) (x3 x4 : Vec F S512x2048 .f32) (x5 : Vec F S1x2048 .f32) : Vec F S512x512 .f32 :=
  View.canon [⟨tileRect, k0_pay3 (View.ld x0 tileRect) (View.ld x1 tileRect) (View.ld x3 weightRect) (View.ld x4 weightRect) (View.ld x5 biasRect) (View.ld x2 tileRect)⟩]

/-- The next-cell-state buffer after the body: its one store, of the payload `k0_pay2`. -/
def cellOut (x0 x1 x2 : Vec F S512x512 .f32) (x3 x4 : Vec F S512x2048 .f32) (x5 : Vec F S1x2048 .f32) : Vec F S512x512 .f32 :=
  View.canon [⟨tileRect, k0_pay2 (View.ld x0 tileRect) (View.ld x1 tileRect) (View.ld x3 weightRect) (View.ld x4 weightRect) (View.ld x5 biasRect) (View.ld x2 tileRect)⟩]

/-- One store of a whole tile covers the buffer. -/
theorem tile_cover (p0 : Vec F S512x512 .f32) (y : S512x512.Idx) :
    ∃ pc ∈ ([⟨tileRect, p0⟩] : List (View.Piece (Elt F) S512x512 .f32)), y ∈ pc.1.set :=
  View.cover_of_tiled [⟨tileRect, p0⟩] S512x512.size (by rfl) y

/-! ## The body's triple -/

set_option maxHeartbeats 1000000 in
/-- The body on whole staging memrefs, the six inputs' at contents `x0 … x5` and the two outputs' at anything, runs to
    the continuation holding the inputs' as they were and the outputs' at `hiddenOut` and `cellOut` of the inputs'. -/
theorem sound_kernel (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S512x2048 .f32) (harg4 : arg4.IsWhole)
    (arg5 : Memref sig .tc .vmem S512x2048 .f32) (harg5 : arg5.IsWhole) (arg6 : Memref sig .tc .vmem S1x2048 .f32) (harg6 : arg6.IsWhole)
    (arg7 : Memref sig .tc .vmem S512x512 .f32) (harg7 : arg7.IsWhole) (arg8 : Memref sig .tc .vmem S512x512 .f32) (harg8 : arg8.IsWhole)
    (x0 x1 x2 : Vec F S512x512 .f32) (x3 x4 : Vec F S512x2048 .f32) (x5 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hiddenOut x0 x1 x2 x3 x4 x5) ∗ owns (c : Thread nD τ) arg8 fullShare (cellOut x0 x1 x2 x3 x4 x5)) -∗ K ⟨⟩))
      ⊢ wp frame (wpE (defs₀ (F := F)) Variants.none c none) E (cc0_lstm_kernel i arg1 harg1 arg2 harg2 arg3 harg3 arg4 harg4 arg5 harg5 arg6 harg6 arg7 harg7 arg8 harg8) K := by
  simp only [cc0_lstm_kernel_eq_skeleton]; unfold cc0_lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (tile_cover _)
  iexists _; isplitr
  swap; · iexact H7
  ipureintro
  try dsimp only
  exact View.read_writes_eq_canon _ _ _ (tile_cover _)

end Cert.KernelIdeal.Cell

end
-- ==== Proof.KernelIdealRun.lean ====
/-
  The region's run, and the frame of the idealized kernel's @main.

  The proof data of the one pipeline: every window's array is what the region finds; after the body at grid point `t`
  each of the six input windows' buffers still holds its block, and the two output windows' buffers hold the next
  hidden state and the next cell state of the tile, as functions of the six input blocks at `t`. The body at any point
  is the tile's triple at those blocks, so every weakly fair execution of @main terminates with every window's array
  at what the proof data computes and every other unscoped buffer as the region found it; read at @main's eleven
  arguments, which nothing writes, that is the frame.
-/
import proofs.«150263_j39015482916921_1_alg».proof.Proof.KernelIdealEntry
import proofs.«150263_j39015482916921_1_alg».proof.Proof.KernelIdealBody

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core `c`: the arrays as the region finds them; after the body at point `t` each input's buffer at
    its block and the outputs' at the tile's next hidden and next cell state; the class invariant; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenOut (blockAt m c 0 t) (blockAt m c 1 t) (blockAt m c 2 t) (blockAt m c 3 t) (blockAt m c 4 t) (blockAt m c 5 t)
    | ⟨7, _⟩ => cellOut (blockAt m c 0 t) (blockAt m c 1 t) (blockAt m c 2 t) (blockAt m c 3 t) (blockAt m c 4 t) (blockAt m c 5 t)
  Φ _ := Pipeline.ΦA spec0 c
  q _ := fullShare
  owed _ := 0

/-- The proof data's arrays are the region-entry contents. -/
theorem A_eq (c : Dev nD) (w : Fin cfg0.W) : (dats m 0 c).A w = entry m c (Pipeline.arrRef spec0 w) := by
  dsimp only [dats]

/-- What the body leaves, window by window. -/
theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = hiddenOut (blockAt m c 0 t) (blockAt m c 1 t) (blockAt m c 2 t) (blockAt m c 3 t) (blockAt m c 4 t) (blockAt m c 5 t) := by dsimp only [dats]
theorem after7 (c : Dev nD) (t : Fin cfg0.N) : (dats m 0 c).after 7 t = cellOut (blockAt m c 0 t) (blockAt m c 1 t) (blockAt m c 2 t) (blockAt m c 3 t) (blockAt m c 4 t) (blockAt m c 5 t) := by dsimp only [dats]

/-- Each input's current staging buffer holds its block at every point, fetched there or not. -/
theorem before0 (c : Dev nD) (t : Fin cfg0.N) (d) : (dats m 0 c).before 0 t d = blockAt m c 0 t :=
  before_in0 m (dats m 0 c) (A_eq m c 0) (after0 m c) t d
theorem before1 (c : Dev nD) (t : Fin cfg0.N) (d) : (dats m 0 c).before 1 t d = blockAt m c 1 t :=
  before_in1 m (dats m 0 c) (A_eq m c 1) (after1 m c) t d
theorem before2 (c : Dev nD) (t : Fin cfg0.N) (d) : (dats m 0 c).before 2 t d = blockAt m c 2 t :=
  before_in2 m (dats m 0 c) (A_eq m c 2) (after2 m c) t d
theorem before3 (c : Dev nD) (t : Fin cfg0.N) (d) : (dats m 0 c).before 3 t d = blockAt m c 3 t :=
  before_in3 m (dats m 0 c) (A_eq m c 3) (after3 m c) t d
theorem before4 (c : Dev nD) (t : Fin cfg0.N) (d) : (dats m 0 c).before 4 t d = blockAt m c 4 t :=
  before_in4 m (dats m 0 c) (A_eq m c 4) (after4 m c) t d
theorem before5 (c : Dev nD) (t : Fin cfg0.N) (d) : (dats m 0 c).before 5 t d = blockAt m c 5 t :=
  before_in5 m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the tile's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has every window's array at what the proof data computes and every other unscoped buffer as the region
    found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_upto m Variants.none) (hA := A_eq m) (hΦ := fun _ _ => rfl)

/-- In a final state of that run @main's eleven arguments are as launched: the three a window stages by the library's
    reading of an input's array, the other eight because nothing in the region touches them, each then because no host
    operation writes it. -/
theorem args_kept (r : PUnit × MemSt nD τ sig (Elt F)) (h : Pipeline.FramePost cfgs (dats m) 0 (entry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨
    ((h c).1 0).trans (((dats m 0 c).arrAt_in 0 rfl _).trans ((A_eq m c 0).trans (entry_unwritten m c main_arg0 (by decide) (by decide) (by decide) (by decide) (by decide) (by decide) (by decide)))),
    ((h c).1 1).trans (((dats m 0 c).arrAt_in 1 rfl _).trans ((A_eq m c 1).trans (entry_unwritten m c main_arg1 (by decide) (by decide) (by decide) (by decide) (by decide) (by decide) (by decide)))),
    ((h c).1 2).trans (((dats m 0 c).arrAt_in 2 rfl _).trans ((A_eq m c 2).trans (entry_unwritten m c main_arg2 (by decide) (by decide) (by decide) (by decide) (by decide) (by decide) (by decide)))),
    ((h c).2 main_arg3 (Pipeline.mem_restRefs_of main_arg3 (by decide) (by decide))).trans (entry_unwritten m c main_arg3 (by decide) (by decide) (by decide) (by decide) (by decide) (by decide) (by decide)),
    ((h c).2 main_arg4 (Pipeline.mem_restRefs_of main_arg4 (by decide) (by decide))).trans (entry_unwritten m c main_arg4 (by decide) (by decide) (by decide) (by decide) (by decide) (by decide) (by decide)),
    ((h c).2 main_arg5 (Pipeline.mem_restRefs_of main_arg5 (by decide) (by decide))).trans (entry_unwritten m c main_arg5 (by decide) (by decide) (by decide) (by decide) (by decide) (by decide) (by decide)),
    ((h c).2 main_arg6 (Pipeline.mem_restRefs_of main_arg6 (by decide) (by decide))).trans (entry_unwritten m c main_arg6 (by decide) (by decide) (by decide) (by decide) (by decide) (by decide) (by decide)),
    ((h c).2 main_arg7 (Pipeline.mem_restRefs_of main_arg7 (by decide) (by decide))).trans (entry_unwritten m c main_arg7 (by decide) (by decide) (by decide) (by decide) (by decide) (by decide) (by decide)),
    ((h c).2 main_arg8 (Pipeline.mem_restRefs_of main_arg8 (by decide) (by decide))).trans (entry_unwritten m c main_arg8 (by decide) (by decide) (by decide) (by decide) (by decide) (by decide) (by decide)),
    ((h c).2 main_arg9 (Pipeline.mem_restRefs_of main_arg9 (by decide) (by decide))).trans (entry_unwritten m c main_arg9 (by decide) (by decide) (by decide) (by decide) (by decide) (by decide) (by decide)),
    ((h c).2 main_arg10 (Pipeline.mem_restRefs_of main_arg10 (by decide) (by decide))).trans (entry_unwritten m c main_arg10 (by decide) (by decide) (by decide) (by decide) (by decide) (by decide) (by decide))⟩

/-- The frame: @main runs to the end and leaves its eleven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m r h c) (run_main m ρ)

end Cert.KernelIdeal.Cell

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.LstmCell.lean ====
/-
  One step of an LSTM cell over the extended reals, element by element.

  The four gates' weights are stacked into one matrix `W` of 2048 rows (forget, input, candidate, output: 512 rows
  each) and 1024 columns (the first 512 meet the step's input `x`, the last 512 the previous hidden state `h`), their
  biases into one vector `β` of 2048 entries. Row `b` of the batch has the pre-activation

      gate b j = ∑ k, x (b, k) · W (j, k)  +  ∑ k, h (b, k) · W (j, 512 + k)  +  β j,

  the next cell state `σ(gate b n) · c (b, n) + σ(gate b (512 + n)) · tanh(gate b (1024 + n))` and the next hidden state
  `σ(gate b (1536 + n)) · tanh` of that, with `σ x = 1 / (1 + e^(-x))` and `tanh` the extended reals' (at the infinities
  their limits). Nothing here is a program: the two programs' results are compared with these functions.
-/
import Idealize.ShloMosaic.PureOps.Ideal
import Idealize.ShloMosaic.Lib.ValueIdx

noncomputable section

open scoped BigOperators

namespace Cert.LstmCell

open Idealize.ShloMosaic Idealize.ShloMosaic.ValueIdx

/-- Column `k` of the stacked weight's input half. -/
abbrev inCol (k : Fin 512) : Fin 1024 := ⟨k.val, by omega⟩
/-- Column `512 + k` of the stacked weight: its recurrent half. -/
abbrev recCol (k : Fin 512) : Fin 1024 := ⟨512 + k.val, by omega⟩
/-- Row `512 · q + n` of the stacked weight and bias: unit `n` of gate number `q`. -/
abbrev gateRow (q : Fin 4) (n : Fin 512) : Fin 2048 := ⟨512 * q.val + n.val, by omega⟩

/-- The pre-activation of stacked gate row `j` at batch row `b`. -/
def gate (x h : (⟨2, ![16384, 512]⟩ : Shape).Idx → EReal) (W : (⟨2, ![2048, 1024]⟩ : Shape).Idx → EReal)
    (β : (⟨1, ![2048]⟩ : Shape).Idx → EReal) (b : Fin 16384) (j : Fin 2048) : EReal :=
  (∑ k : Fin 512, x (ix2 b k) * W (ix2 j (inCol k))) + (∑ k : Fin 512, h (ix2 b k) * W (ix2 j (recCol k))) + β (ix1 j)

/-- The next cell state at batch row `b`, unit `n`: the forget gate times the old state plus the input gate times the candidate. -/
def cellNext (x h c : (⟨2, ![16384, 512]⟩ : Shape).Idx → EReal) (W : (⟨2, ![2048, 1024]⟩ : Shape).Idx → EReal)
    (β : (⟨1, ![2048]⟩ : Shape).Idx → EReal) (b : Fin 16384) (n : Fin 512) : EReal :=
  Ideal.logistic (gate x h W β b (gateRow 0 n)) * c (ix2 b n)
    + Ideal.logistic (gate x h W β b (gateRow 1 n)) * Ideal.tanh (gate x h W β b (gateRow 2 n))

/-- The next hidden state: the output gate times `tanh` of the next cell state. -/
def hiddenNext (x h c : (⟨2, ![16384, 512]⟩ : Shape).Idx → EReal) (W : (⟨2, ![2048, 1024]⟩ : Shape).Idx → EReal)
    (β : (⟨1, ![2048]⟩ : Shape).Idx → EReal) (b : Fin 16384) (n : Fin 512) : EReal :=
  Ideal.logistic (gate x h W β b (gateRow 3 n)) * Ideal.tanh (cellNext x h c W β b n)

/-- The next cell state as an array over the batch. -/
def cellArr (x h c : (⟨2, ![16384, 512]⟩ : Shape).Idx → EReal) (W : (⟨2, ![2048, 1024]⟩ : Shape).Idx → EReal)
    (β : (⟨1, ![2048]⟩ : Shape).Idx → EReal) : (⟨2, ![16384, 512]⟩ : Shape).Idx → EReal :=
  fun i => cellNext x h c W β (i 0) (i 1)

/-- The next hidden state as an array over the batch. -/
def hiddenArr (x h c : (⟨2, ![16384, 512]⟩ : Shape).Idx → EReal) (W : (⟨2, ![2048, 1024]⟩ : Shape).Idx → EReal)
    (β : (⟨1, ![2048]⟩ : Shape).Idx → EReal) : (⟨2, ![16384, 512]⟩ : Shape).Idx → EReal :=
  fun i => hiddenNext x h c W β (i 0) (i 1)

theorem cellArr_ix2 (x h c W β) (b : Fin 16384) (n : Fin 512) : cellArr x h c W β (ix2 b n) = cellNext x h c W β b n := rfl

theorem hiddenArr_ix2 (x h c W β) (b : Fin 16384) (n : Fin 512) : hiddenArr x h c W β (ix2 b n) = hiddenNext x h c W β b n := rfl

end Cert.LstmCell

end
-- ==== Proof.KernelIdealPayload.lean ====
/-
  The kernel body's arithmetic read at one element, at the ideal values.

  The body loads a batch tile's rows of the step's input and of the previous hidden state (two [512, 512] blocks), the
  two halves of the stacked weight, each transposed to [512, 2048], the stacked bias as one row [1, 2048] and the tile's
  rows of the previous cell state. Over the extended reals the narrowing of the operands to the short format is the
  identity, so the first named value of the body is, at row p and stacked gate row j, the two matrix products' sums
  plus the bias (tileGate); the four gates are its four bands of 512 columns, and the next cell and hidden state are
  the cell's formulas of those bands element by element.
-/
import proofs.«150263_j39015482916921_1_alg».proof.Proof.Gen.KernelIdeal.Skeleton
import proofs.«150263_j39015482916921_1_alg».proof.Proof.LibPlainMatmul
import proofs.«150263_j39015482916921_1_alg».proof.Proof.LstmCell
import Idealize.ShloMosaic.Lib.ValueIdx
import Idealize.ShloMosaic.Lib.ValueLayout

noncomputable section

open scoped BigOperators

namespace Cert.KernelIdeal.Payload

open Idealize.ShloMosaic Idealize.ShloMosaic.ValueIdx

/-! ## The product's dimension numbers: one contracted axis of extent 512, left rows and right columns kept -/

theorem dot_rank : dot_S512x512_S512x2048_S512x2048_1_0_0_1_n_n.contr.rank = 1 := rfl

theorem dot_size : dot_S512x512_S512x2048_S512x2048_1_0_0_1_n_n.contr.size ⟨0, by decide⟩ = 512 := rfl

/-- The left operand's row is the result's row. -/
theorem dot_lhs_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl

/-- The left operand's column is the contraction coordinate. -/
theorem dot_lhs_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q

/-- The right operand's row is the contraction coordinate. -/
theorem dot_rhs_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q

/-- The right operand's column is the result's column. -/
theorem dot_rhs_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-! ## One lemma per operation that is not pointwise -/

/-- A tile product into the zero splat, at (p, j): the sum over the 512 contracted positions. -/
theorem matmul_tile_apply {φ₁ φ₂ : FTy} (A : FVec Ideal S512x512 φ₁) (B : FVec Ideal S512x2048 φ₂) (p : Fin 512) (j : Fin 2048) :
    matmul dot_S512x512_S512x2048_S512x2048_1_0_0_1_n_n none A B (constant (F := Ideal) S512x2048 .f32 0x00000000#32) (ix2 p j)
      = ∑ k : Fin 512, A (ix2 p k) * B (ix2 k j) :=
  Cert.LibPlainMatmul.matmul_zero_apply (M := 512) (K := 512) (N := 2048) dot_S512x512_S512x2048_S512x2048_1_0_0_1_n_n none
    dot_rank dot_size dot_lhs_0 dot_lhs_1 dot_rhs_0 dot_rhs_1 A B p j

/-- The band of 512 columns from offset 512 · q of a [512, 2048] array is gate number q: at (p, n) it reads stacked
    gate row 512 · q + n. -/
theorem gateSlice_apply (X : FVec Ideal S512x2048 .f32) (o : Nat) (h : S512x2048.Slices ![0, o] S512x512) (q : Fin 4)
    (ho : o = 512 * q.val) (p : Fin 512) (n : Fin 512) :
    extractStridedSlice S512x512 ![0, o] X h (ix2 p n) = X (ix2 p (Cert.LstmCell.gateRow q n)) :=
  slice2_axis1_apply o X h p n (Cert.LstmCell.gateRow q n) (by subst ho; rfl)

/-! ## The three named values at an index -/

section
variable (v0 v2 : Vec Ideal S512x512 .f32) (v4 v7 : Vec Ideal S512x2048 .f32) (v13 : Vec Ideal S1x2048 .f32)
  (v25 : Vec Ideal S512x512 .f32)

/-- The pre-activation of stacked gate row j at row p of the tile. -/
def tileGate (p : Fin 512) (j : Fin 2048) : EReal :=
  (∑ k : Fin 512, v0 (ix2 p k) * v4 (ix2 k j)) + (∑ k : Fin 512, v2 (ix2 p k) * v7 (ix2 k j)) + v13 (ix2 0 j)

variable (p : Fin 512) (j : Fin 2048) (n : Fin 512)

theorem pay1_apply : Gen.k0_pay1 (F := Ideal) v0 v2 v4 v7 v13 (ix2 p j) = tileGate v0 v2 v4 v7 v13 p j := by
  unfold Gen.k0_pay1 tileGate
  show (matmul _ none _ _ _ (ix2 p j) + matmul _ none _ _ _ (ix2 p j)) + broadcastTo _ _ _ (ix2 p j) = _
  rw [matmul_tile_apply, matmul_tile_apply, broadcastTo_1b_ab_apply, shapeCast_self, shapeCast_self, shapeCast_self]
  rfl

theorem pay2_apply : Gen.k0_pay2 (F := Ideal) v0 v2 v4 v7 v13 v25 (ix2 p n)
    = Ideal.logistic (tileGate v0 v2 v4 v7 v13 p (Cert.LstmCell.gateRow 0 n)) * v25 (ix2 p n)
      + Ideal.logistic (tileGate v0 v2 v4 v7 v13 p (Cert.LstmCell.gateRow 1 n)) * Ideal.tanh (tileGate v0 v2 v4 v7 v13 p (Cert.LstmCell.gateRow 2 n)) := by
  unfold Gen.k0_pay2
  show Ideal.logistic (extractStridedSlice S512x512 ![0, 0] (Gen.k0_pay1 (F := Ideal) v0 v2 v4 v7 v13) _ (ix2 p n)) * v25 (ix2 p n)
      + Ideal.logistic (extractStridedSlice S512x512 ![0, 512] (Gen.k0_pay1 (F := Ideal) v0 v2 v4 v7 v13) _ (ix2 p n))
        * Ideal.tanh (extractStridedSlice S512x512 ![0, 1024] (Gen.k0_pay1 (F := Ideal) v0 v2 v4 v7 v13) _ (ix2 p n)) = _
  rw [gateSlice_apply _ 0 _ 0 rfl, gateSlice_apply _ 512 _ 1 rfl, gateSlice_apply _ 1024 _ 2 rfl, pay1_apply, pay1_apply, pay1_apply]

theorem pay3_apply : Gen.k0_pay3 (F := Ideal) v0 v2 v4 v7 v13 v25 (ix2 p n)
    = Ideal.logistic (tileGate v0 v2 v4 v7 v13 p (Cert.LstmCell.gateRow 3 n))
      * Ideal.tanh (Gen.k0_pay2 (F := Ideal) v0 v2 v4 v7 v13 v25 (ix2 p n)) := by
  unfold Gen.k0_pay3
  show Ideal.logistic (extractStridedSlice S512x512 ![0, 1536] (Gen.k0_pay1 (F := Ideal) v0 v2 v4 v7 v13) _ (ix2 p n))
      * Ideal.tanh (Gen.k0_pay2 (F := Ideal) v0 v2 v4 v7 v13 v25 (ix2 p n)) = _
  rw [gateSlice_apply _ 1536 _ 3 rfl, pay1_apply]

end

end Cert.KernelIdeal.Payload

end
-- ==== Proof.KernelIdealTile.lean ====
/-
  One batch tile of the cell step is the tile's rows of the whole step.

  Suppose six blocks are cut from the step's arrays as the kernel cuts them: rows `r p` (for `p` a row of the tile) of
  the input `x`, the previous hidden state `h` and the previous cell state `c`; the input half and the recurrent half of
  the stacked weight `W`, each transposed (entry `(k, j)` is `W (j, k)`, resp. `W (j, 512 + k)`); and the stacked bias
  `β` as one row. Then the body's next cell state and next hidden state at `(p, n)` are the cell's at batch row `r p`,
  unit `n`: the tile's gate pre-activation is the step's, sum by sum.
-/
import proofs.«150263_j39015482916921_1_alg».proof.Proof.KernelIdealPayload

noncomputable section

open scoped BigOperators

namespace Cert.KernelIdeal.Tile

open Cert.KernelIdeal Cert.KernelIdeal.Payload Cert.LstmCell
open Idealize.ShloMosaic Idealize.ShloMosaic.ValueIdx

variable (v0 v2 v25 : Vec Ideal S512x512 .f32) (v4 v7 : Vec Ideal S512x2048 .f32) (v13 : Vec Ideal S1x2048 .f32)
variable (x h c : (⟨2, ![16384, 512]⟩ : Shape).Idx → EReal) (W : (⟨2, ![2048, 1024]⟩ : Shape).Idx → EReal)
  (β : (⟨1, ![2048]⟩ : Shape).Idx → EReal) (r : Fin 512 → Fin 16384)

/-- The tile's pre-activation is the step's at the tile's batch row. -/
theorem tileGate_eq (hx : ∀ p k, v0 (ix2 p k) = x (ix2 (r p) k)) (hh : ∀ p k, v2 (ix2 p k) = h (ix2 (r p) k))
    (hwi : ∀ k j, v4 (ix2 k j) = W (ix2 j (inCol k))) (hwr : ∀ k j, v7 (ix2 k j) = W (ix2 j (recCol k)))
    (hb : ∀ j, v13 (ix2 0 j) = β (ix1 j)) (p : Fin 512) (j : Fin 2048) :
    tileGate v0 v2 v4 v7 v13 p j = gate x h W β (r p) j := by
  unfold tileGate gate
  simp only [hx, hh, hwi, hwr, hb]

/-- The body's next cell state on the tile is the step's at the tile's batch rows. -/
theorem cell_tile (hx : ∀ p k, v0 (ix2 p k) = x (ix2 (r p) k)) (hh : ∀ p k, v2 (ix2 p k) = h (ix2 (r p) k))
    (hc : ∀ p n, v25 (ix2 p n) = c (ix2 (r p) n))
    (hwi : ∀ k j, v4 (ix2 k j) = W (ix2 j (inCol k))) (hwr : ∀ k j, v7 (ix2 k j) = W (ix2 j (recCol k)))
    (hb : ∀ j, v13 (ix2 0 j) = β (ix1 j)) (p n : Fin 512) :
    Gen.k0_pay2 (F := Ideal) v0 v2 v4 v7 v13 v25 (ix2 p n) = cellNext x h c W β (r p) n := by
  rw [pay2_apply]
  unfold cellNext
  simp only [tileGate_eq v0 v2 v4 v7 v13 x h W β r hx hh hwi hwr hb, hc]

/-- The body's next hidden state on the tile is the step's at the tile's batch rows. -/
theorem hidden_tile (hx : ∀ p k, v0 (ix2 p k) = x (ix2 (r p) k)) (hh : ∀ p k, v2 (ix2 p k) = h (ix2 (r p) k))
    (hc : ∀ p n, v25 (ix2 p n) = c (ix2 (r p) n))
    (hwi : ∀ k j, v4 (ix2 k j) = W (ix2 j (inCol k))) (hwr : ∀ k j, v7 (ix2 k j) = W (ix2 j (recCol k)))
    (hb : ∀ j, v13 (ix2 0 j) = β (ix1 j)) (p n : Fin 512) :
    Gen.k0_pay3 (F := Ideal) v0 v2 v4 v7 v13 v25 (ix2 p n) = hiddenNext x h c W β (r p) n := by
  rw [pay3_apply, cell_tile v0 v2 v25 v4 v7 v13 x h c W β r hx hh hc hwi hwr hb]
  unfold hiddenNext
  simp only [tileGate_eq v0 v2 v4 v7 v13 x h W β r hx hh hwi hwr hb]

end Cert.KernelIdeal.Tile

end
-- ==== Proof.KernelIdealValue.lean ====
/-
  What the idealized kernel computes: the cell step of the launch contents.

  The stacked weight `wStack` and the stacked bias `bStack` are the host's two four-piece concatenations of the launch
  contents (never opened here: the reference stacks the same way). The region finds the input half of the stacked weight
  transposed (`(k, j) ↦ wStack (j, k)`), the recurrent half transposed (`(k, j) ↦ wStack (j, 512 + k)`) and the bias as
  one row. At grid point `t` the three batch-tiled windows hold rows `512 · t + p` of their arrays and the three others
  their arrays whole, so by the tile lemma what the body leaves in the two output buffers is rows `512 · t + p` of the
  step's next hidden state and next cell state. The thirty-two tiles fill the batch (row `r` lies in tile `r / 512`), so
  after the run the two result arrays ARE those two functions of the launch contents.
-/
import proofs.«150263_j39015482916921_1_alg».proof.Proof.KernelIdealRun
import proofs.«150263_j39015482916921_1_alg».proof.Proof.KernelIdealTile
import Idealize.ShloMosaic.Lib.Pipeline.Value
import Idealize.ShloMosaic.Lib.ValueIdx
import Idealize.ShloMosaic.Lib.StableHlo.Run

set_option maxRecDepth 16384

noncomputable section

namespace Cert.KernelIdeal.CellValue

open Cert.KernelIdeal Cert.KernelIdeal.Gen Cert.KernelIdeal.Cell Cert.LstmCell
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ) (ρ : Dev nD → PrngReg)

/-! ## The launch contents, by their roles -/

/-- The step's input, the previous hidden state and the previous cell state on core `c`. -/
abbrev xArr (c : Dev nD) : S16384x512.Idx → EReal := m ((c : Thread nD τ).loc main_arg0)
abbrev hArr (c : Dev nD) : S16384x512.Idx → EReal := m ((c : Thread nD τ).loc main_arg1)
abbrev cArr (c : Dev nD) : S16384x512.Idx → EReal := m ((c : Thread nD τ).loc main_arg2)

/-- The four gates' weights stacked: forget, input, candidate, output. -/
abbrev wStack (c : Dev nD) : S2048x1024.Idx → EReal :=
  concatenate S2048x1024 0 [⟨S512x1024, m ((c : Thread nD τ).loc main_arg3)⟩, ⟨S512x1024, m ((c : Thread nD τ).loc main_arg5)⟩, ⟨S512x1024, m ((c : Thread nD τ).loc main_arg7)⟩, ⟨S512x1024, m ((c : Thread nD τ).loc main_arg9)⟩] concatenates_S512x1024_S512x1024_S512x1024_S512x1024_S2048x1024_d0

/-- The four gates' biases stacked the same way. -/
abbrev bStack (c : Dev nD) : S2048.Idx → EReal :=
  concatenate S2048 0 [⟨S512, m ((c : Thread nD τ).loc main_arg4)⟩, ⟨S512, m ((c : Thread nD τ).loc main_arg6)⟩, ⟨S512, m ((c : Thread nD τ).loc main_arg8)⟩, ⟨S512, m ((c : Thread nD τ).loc main_arg10)⟩] concatenates_S512_S512_S512_S512_S2048_d0

/-! ## What the region finds in the three arrays the host wrote -/

theorem entry_inWeight (c : Dev nD) : (entry m c main_v3 : S512x2048.Idx → EReal)
    = transpose S512x2048 [1, 0] (extractStridedSlice S2048x512 ![0, 0] (wStack m c) slices_S2048x1024_S2048x512_0_0) transposes_S2048x512_S512x2048_1_0 := by
  dsimp only [entry, hostOps0]; after_results; rfl

theorem entry_recWeight (c : Dev nD) : (entry m c main_v5 : S512x2048.Idx → EReal)
    = transpose S512x2048 [1, 0] (extractStridedSlice S2048x512 ![0, 512] (wStack m c) slices_S2048x1024_S2048x512_0_512) transposes_S2048x512_S512x2048_1_0 := by
  dsimp only [entry, hostOps0]; after_results; rfl

theorem entry_biasRow (c : Dev nD) : (entry m c main_v6 : S1x2048.Idx → EReal) = shapeCast S1x2048 (bStack m c) shapeCasts_S2048_S1x2048 := by
  dsimp only [entry, hostOps0]; after_results; rfl

/-- The input half, transposed: entry `(k, j)` is the stacked weight's `(j, k)`. -/
theorem inWeight_apply (c : Dev nD) (k : Fin 512) (j : Fin 2048) : entry m c main_v3 (ix2 k j) = wStack m c (ix2 j (inCol k)) := by
  refine (congrFun (entry_inWeight m c) (ix2 k j)).trans ?_
  refine (transpose_apply [1, 0] _ transposes_S2048x512_S512x2048_1_0 (ix2 k j) (ix2 j k) (fun b => by
    match b with
    | ⟨0, _⟩ => rfl
    | ⟨1, _⟩ => rfl)).trans ?_
  exact extractStridedSlice_apply ![0, 0] (wStack m c) slices_S2048x1024_S2048x512_0_0 (ix2 j k) (ix2 j (inCol k)) (fun a => by
    match a with
    | ⟨0, _⟩ => show j.val = 0 + j.val; omega
    | ⟨1, _⟩ => show k.val = 0 + k.val; omega)

/-- The recurrent half, transposed: entry `(k, j)` is the stacked weight's `(j, 512 + k)`. -/
theorem recWeight_apply (c : Dev nD) (k : Fin 512) (j : Fin 2048) : entry m c main_v5 (ix2 k j) = wStack m c (ix2 j (recCol k)) := by
  refine (congrFun (entry_recWeight m c) (ix2 k j)).trans ?_
  refine (transpose_apply [1, 0] _ transposes_S2048x512_S512x2048_1_0 (ix2 k j) (ix2 j k) (fun b => by
    match b with
    | ⟨0, _⟩ => rfl
    | ⟨1, _⟩ => rfl)).trans ?_
  exact extractStridedSlice_apply ![0, 512] (wStack m c) slices_S2048x1024_S2048x512_0_512 (ix2 j k) (ix2 j (recCol k)) (fun a => by
    match a with
    | ⟨0, _⟩ => show j.val = 0 + j.val; omega
    | ⟨1, _⟩ => show 512 + k.val = 512 + k.val; rfl)

/-- The bias as one row: entry `(0, j)` is the stacked bias's `j`. -/
theorem biasRow_apply (c : Dev nD) (j : Fin 2048) : entry m c main_v6 (ix2 (0 : Fin 1) j) = bStack m c (ix1 j) := by
  refine (congrFun (entry_biasRow m c) (ix2 (0 : Fin 1) j)).trans ?_
  exact shapeCast_apply (bStack m c) shapeCasts_S2048_S1x2048 (ix2 (0 : Fin 1) j) (ix1 j) (by
    rw [Shape.rowMajor_val_one, Shape.rowMajor_val_two]; show j.val = 0 * 2048 + j.val; omega)

/-! ## The windows' blocks at a grid point -/

/-- The printed index maps, decided over the grid: the five batch-tiled windows sit at block `(t, 0)`, the three others at `(0, 0)`. -/
theorem tiled_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem whole_index : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- Batch row `512 · t + p`: row `p` of tile `t`. -/
def tileRow (t : Fin cfg0.N) (p : Fin 512) : Fin 16384 :=
  ⟨512 * t.val + p.val, by have ht : t.val < 32 := lt_of_lt_of_eq t.isLt N_0; have := p.isLt; omega⟩

/-- Window 0's block at point `t` is rows `512 · t + p` of the step's input. -/
theorem xBlock_apply (c : Dev nD) (t : Fin cfg0.N) (p k : Fin 512) : blockAt m c 0 t (ix2 p k) = xArr m c (ix2 (tileRow t p) k) := by
  show entry m c main_arg0 (((cfg0.win 0).blk t).view.emb (ix2 p k)) = _
  refine (congrFun (entry_unwritten m c main_arg0 (by decide) (by decide) (by decide) (by decide) (by decide) (by decide) (by decide)) _).trans ?_
  refine congrArg (m ((c : Thread nD τ).loc main_arg0)) (funext fun a => Fin.ext ?_)
  obtain ⟨e0, e1⟩ := (tiled_index t).1
  match a with
  | ⟨0, _⟩ => show win0_0.index t (0 : Fin 2) * 512 + 1 * p.val = 512 * t.val + p.val; omega
  | ⟨1, _⟩ => show win0_0.index t (1 : Fin 2) * 512 + 1 * k.val = k.val; omega

/-- Window 1's block at point `t` is rows `512 · t + p` of the previous hidden state. -/
theorem hBlock_apply (c : Dev nD) (t : Fin cfg0.N) (p k : Fin 512) : blockAt m c 1 t (ix2 p k) = hArr m c (ix2 (tileRow t p) k) := by
  show entry m c main_arg1 (((cfg0.win 1).blk t).view.emb (ix2 p k)) = _
  refine (congrFun (entry_unwritten m c main_arg1 (by decide) (by decide) (by decide) (by decide) (by decide) (by decide) (by decide)) _).trans ?_
  refine congrArg (m ((c : Thread nD τ).loc main_arg1)) (funext fun a => Fin.ext ?_)
  obtain ⟨e0, e1⟩ := (tiled_index t).2.1
  match a with
  | ⟨0, _⟩ => show win0_1.index t (0 : Fin 2) * 512 + 1 * p.val = 512 * t.val + p.val; omega
  | ⟨1, _⟩ => show win0_1.index t (1 : Fin 2) * 512 + 1 * k.val = k.val; omega

/-- Window 2's block at point `t` is rows `512 · t + p` of the previous cell state. -/
theorem cBlock_apply (c : Dev nD) (t : Fin cfg0.N) (p k : Fin 512) : blockAt m c 2 t (ix2 p k) = cArr m c (ix2 (tileRow t p) k) := by
  show entry m c main_arg2 (((cfg0.win 2).blk t).view.emb (ix2 p k)) = _
  refine (congrFun (entry_unwritten m c main_arg2 (by decide) (by decide) (by decide) (by decide) (by decide) (by decide) (by decide)) _).trans ?_
  refine congrArg (m ((c : Thread nD τ).loc main_arg2)) (funext fun a => Fin.ext ?_)
  obtain ⟨e0, e1⟩ := (tiled_index t).2.2.1
  match a with
  | ⟨0, _⟩ => show win0_2.index t (0 : Fin 2) * 512 + 1 * p.val = 512 * t.val + p.val; omega
  | ⟨1, _⟩ => show win0_2.index t (1 : Fin 2) * 512 + 1 * k.val = k.val; omega

/-- Window 3's block at every point is the whole transposed input half. -/
theorem inWeightBlock_apply (c : Dev nD) (t : Fin cfg0.N) (k : Fin 512) (j : Fin 2048) : blockAt m c 3 t (ix2 k j) = wStack m c (ix2 j (inCol k)) := by
  refine Eq.trans ?_ (inWeight_apply m c k j)
  show entry m c main_v3 (((cfg0.win 3).blk t).view.emb (ix2 k j)) = _
  refine congrArg (entry m c main_v3) (funext fun a => Fin.ext ?_)
  obtain ⟨e0, e1⟩ := (whole_index t).1
  match a with
  | ⟨0, _⟩ => show win0_3.index t (0 : Fin 2) * 512 + 1 * k.val = k.val; omega
  | ⟨1, _⟩ => show win0_3.index t (1 : Fin 2) * 2048 + 1 * j.val = j.val; omega

/-- Window 4's block at every point is the whole transposed recurrent half. -/
theorem recWeightBlock_apply (c : Dev nD) (t : Fin cfg0.N) (k : Fin 512) (j : Fin 2048) : blockAt m c 4 t (ix2 k j) = wStack m c (ix2 j (recCol k)) := by
  refine Eq.trans ?_ (recWeight_apply m c k j)
  show entry m c main_v5 (((cfg0.win 4).blk t).view.emb (ix2 k j)) = _
  refine congrArg (entry m c main_v5) (funext fun a => Fin.ext ?_)
  obtain ⟨e0, e1⟩ := (whole_index t).2.1
  match a with
  | ⟨0, _⟩ => show win0_4.index t (0 : Fin 2) * 512 + 1 * k.val = k.val; omega
  | ⟨1, _⟩ => show win0_4.index t (1 : Fin 2) * 2048 + 1 * j.val = j.val; omega

/-- Window 5's block at every point is the whole bias row. -/
theorem biasBlock_apply (c : Dev nD) (t : Fin cfg0.N) (j : Fin 2048) : blockAt m c 5 t (ix2 (0 : Fin 1) j) = bStack m c (ix1 j) := by
  refine Eq.trans ?_ (biasRow_apply m c j)
  show entry m c main_v6 (((cfg0.win 5).blk t).view.emb (ix2 (0 : Fin 1) j)) = _
  refine congrArg (entry m c main_v6) (funext fun a => Fin.ext ?_)
  obtain ⟨e0, e1⟩ := (whole_index t).2.2
  match a with
  | ⟨0, _⟩ => show win0_5.index t (0 : Fin 2) * 1 + 1 * 0 = 0; omega
  | ⟨1, _⟩ => show win0_5.index t (1 : Fin 2) * 2048 + 1 * j.val = j.val; omega

/-! ## From the tiles to the two result arrays -/

/-- Every access rectangle of the body starts at the origin. -/
theorem origin : (![0, 0] : Fin 2 → Nat) = fun _ => 0 := funext fun a => by fin_cases a <;> rfl

/-- What point `t` writes back through window 6 is block `t` of the step's hidden. -/
theorem hidden_flushed (c : Dev nD) (t : Fin cfg0.N) :
    (dats m 0 c).flushed 6 t = ((cfg0.win 6).blk t).view.read (Elt Ideal) (hiddenArr (xArr m c) (hArr m c) (cArr m c) (wStack m c) (bStack m c)) := by
  show (cfg0.win 6).cut (grid0.coords t) ((dats m 0 c).after 6 t) = _
  rw [after6]
  unfold hiddenOut
  rw [View.canon_unit_zero origin]
  simp only [View.ld_unit_zero (S := S512x512) origin, View.ld_unit_zero (S := S512x2048) origin, View.ld_unit_zero (S := S1x2048) origin]
  funext y
  obtain ⟨p, n, rfl⟩ : ∃ (p n : Fin 512), y = ix2 p n := ⟨y 0, y 1, eq_ix2 y⟩
  show k0_pay3 (F := Ideal) (blockAt m c 0 t) (blockAt m c 1 t) (blockAt m c 3 t) (blockAt m c 4 t) (blockAt m c 5 t) (blockAt m c 2 t) (ix2 p n)
    = hiddenArr (xArr m c) (hArr m c) (cArr m c) (wStack m c) (bStack m c) (((cfg0.win 6).blk t).view.emb (ix2 p n))
  have hemb : ((cfg0.win 6).blk t).view.emb (ix2 p n) = ix2 (tileRow t p) n := by
    funext a; apply Fin.ext
    obtain ⟨e0, e1⟩ := (tiled_index t).2.2.2.1
    match a with
    | ⟨0, _⟩ => show win0_6.index t (0 : Fin 2) * 512 + 1 * p.val = 512 * t.val + p.val; omega
    | ⟨1, _⟩ => show win0_6.index t (1 : Fin 2) * 512 + 1 * n.val = n.val; omega
  rw [hemb]
  exact Tile.hidden_tile (blockAt m c 0 t) (blockAt m c 1 t) (blockAt m c 2 t) (blockAt m c 3 t) (blockAt m c 4 t) (blockAt m c 5 t) (xArr m c) (hArr m c) (cArr m c) (wStack m c) (bStack m c) (tileRow t)
    (xBlock_apply m c t) (hBlock_apply m c t) (cBlock_apply m c t) (inWeightBlock_apply m c t) (recWeightBlock_apply m c t) (biasBlock_apply m c t) p n

/-- An index of the array is in point `t`'s block of window 6 iff each coordinate is in the block's range on its axis. -/
theorem hidden_mem_blk (t : Fin cfg0.N) (i : S16384x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v7_0).slice (win0_6.rect t)).set ↔ _
  rw [View.set_slice_whole, Rect.mem_set_unit]
  exact Iff.rfl

/-- Every batch row lies in the block of the point numbered by its tile: row `r` is in tile `r / 512`. -/
theorem hidden_cover (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  have hN : (i 0).val / 512 < cfg0.N := by rw [show cfg0.N = 32 from N_0]; omega
  obtain ⟨e0, e1⟩ := (tiled_index ⟨(i 0).val / 512, hN⟩).2.2.2.1
  refine ⟨⟨(i 0).val / 512, hN⟩, flush0_6 _, ?_⟩
  rw [hidden_mem_blk]
  intro a
  match a with
  | ⟨0, _⟩ =>
    show win0_6.index ⟨(i 0).val / 512, hN⟩ (0 : Fin 2) * 512 ≤ (i 0).val ∧ (i 0).val < win0_6.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_6.index ⟨(i 0).val / 512, hN⟩ (1 : Fin 2) * 512 ≤ (i 1).val ∧ (i 1).val < win0_6.index ⟨(i 0).val / 512, hN⟩ (1 : Fin 2) * 512 + 512
    rw [e1]; omega

/-- The array behind window 6 after the run is the step's hidden, whole. -/
theorem hidden_final (c : Dev nD) : (dats m 0 c).arrAt 6 cfg0.N = hiddenArr (xArr m c) (hArr m c) (cArr m c) (wStack m c) (bStack m c) :=
  (dats m 0 c).arrAt_eq_of_cover 6 _ (fun t _ => hidden_flushed m c t) hidden_cover

/-- What point `t` writes back through window 7 is block `t` of the step's cell. -/
theorem cell_flushed (c : Dev nD) (t : Fin cfg0.N) :
    (dats m 0 c).flushed 7 t = ((cfg0.win 7).blk t).view.read (Elt Ideal) (cellArr (xArr m c) (hArr m c) (cArr m c) (wStack m c) (bStack m c)) := by
  show (cfg0.win 7).cut (grid0.coords t) ((dats m 0 c).after 7 t) = _
  rw [after7]
  unfold cellOut
  rw [View.canon_unit_zero origin]
  simp only [View.ld_unit_zero (S := S512x512) origin, View.ld_unit_zero (S := S512x2048) origin, View.ld_unit_zero (S := S1x2048) origin]
  funext y
  obtain ⟨p, n, rfl⟩ : ∃ (p n : Fin 512), y = ix2 p n := ⟨y 0, y 1, eq_ix2 y⟩
  show k0_pay2 (F := Ideal) (blockAt m c 0 t) (blockAt m c 1 t) (blockAt m c 3 t) (blockAt m c 4 t) (blockAt m c 5 t) (blockAt m c 2 t) (ix2 p n)
    = cellArr (xArr m c) (hArr m c) (cArr m c) (wStack m c) (bStack m c) (((cfg0.win 7).blk t).view.emb (ix2 p n))
  have hemb : ((cfg0.win 7).blk t).view.emb (ix2 p n) = ix2 (tileRow t p) n := by
    funext a; apply Fin.ext
    obtain ⟨e0, e1⟩ := (tiled_index t).2.2.2.2
    match a with
    | ⟨0, _⟩ => show win0_7.index t (0 : Fin 2) * 512 + 1 * p.val = 512 * t.val + p.val; omega
    | ⟨1, _⟩ => show win0_7.index t (1 : Fin 2) * 512 + 1 * n.val = n.val; omega
  rw [hemb]
  exact Tile.cell_tile (blockAt m c 0 t) (blockAt m c 1 t) (blockAt m c 2 t) (blockAt m c 3 t) (blockAt m c 4 t) (blockAt m c 5 t) (xArr m c) (hArr m c) (cArr m c) (wStack m c) (bStack m c) (tileRow t)
    (xBlock_apply m c t) (hBlock_apply m c t) (cBlock_apply m c t) (inWeightBlock_apply m c t) (recWeightBlock_apply m c t) (biasBlock_apply m c t) p n

/-- An index of the array is in point `t`'s block of window 7 iff each coordinate is in the block's range on its axis. -/
theorem cell_mem_blk (t : Fin cfg0.N) (i : S16384x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v7_1).slice (win0_7.rect t)).set ↔ _
  rw [View.set_slice_whole, Rect.mem_set_unit]
  exact Iff.rfl

/-- Every batch row lies in the block of the point numbered by its tile: row `r` is in tile `r / 512`. -/
theorem cell_cover (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hN : (i 0).val / 512 < cfg0.N := by rw [show cfg0.N = 32 from N_0]; omega
  obtain ⟨e0, e1⟩ := (tiled_index ⟨(i 0).val / 512, hN⟩).2.2.2.2
  refine ⟨⟨(i 0).val / 512, hN⟩, flush0_7 _, ?_⟩
  rw [cell_mem_blk]
  intro a
  match a with
  | ⟨0, _⟩ =>
    show win0_7.index ⟨(i 0).val / 512, hN⟩ (0 : Fin 2) * 512 ≤ (i 0).val ∧ (i 0).val < win0_7.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_7.index ⟨(i 0).val / 512, hN⟩ (1 : Fin 2) * 512 ≤ (i 1).val ∧ (i 1).val < win0_7.index ⟨(i 0).val / 512, hN⟩ (1 : Fin 2) * 512 + 512
    rw [e1]; omega

/-- The array behind window 7 after the run is the step's cell, whole. -/
theorem cell_final (c : Dev nD) : (dats m 0 c).arrAt 7 cfg0.N = cellArr (xArr m c) (hArr m c) (cArr m c) (wStack m c) (bStack m c) :=
  (dats m 0 c).arrAt_eq_of_cover 7 _ (fun t _ => cell_flushed m c t) cell_cover

/-! ## The run, read -/

/-- Every weakly fair execution of the idealized kernel's @main ends with the first result array at the step's next
    hidden state and the second at its next cell state, of the launch contents, and with the eleven arguments as launched. -/
theorem run : θ_run defs (onTc (τ := τ) (main (F := Ideal))) ⟨m, fun _ => 0, ρ⟩ (fun r => ∀ c : Dev nD,
      r.2.mem ((c.tc : Thread nD τ).loc main_v7_0) = hiddenArr (xArr m c) (hArr m c) (cArr m c) (wStack m c) (bStack m c)
      ∧ r.2.mem ((c.tc : Thread nD τ).loc main_v7_1) = cellArr (xArr m c) (hArr m c) (cArr m c) (wStack m c) (bStack m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 6).trans (hidden_final m c), ((h c).1 7).trans (cell_final m c), args_kept m r h c⟩) (run_main m ρ)

end Cert.KernelIdeal.CellValue

end
-- ==== Proof.ReferenceValue.lean ====
/-
  The reference program, read one element at a time, is the LSTM cell of `Cert.LstmCell`.

  The reference joins the step's input and the previous hidden state along the columns into one [16384, 1024] array,
  stacks the four gates' weights into `W` and their biases into `β` (these two stay as they are: they are the
  specification's own `W` and `β`), multiplies the joined array by `W` transposed, adds `β` to every row, cuts the
  result into the four gates' 512 columns, and applies `1 / (1 + e^(-x))` (spelled out with the constant one), `tanh`,
  the products and the sum. At the extended reals:

    * the joined array at column `k < 512` is the input, at column `512 + k` the hidden state;
    * the contraction's sum over the 1024 joined columns is the sum over the first 512 plus the sum over the last 512
      (a sum over `Fin (512 + 512)` splits so in any additive commutative monoid, nothing is asked of finiteness), which
      is the specification's `gate`;
    * column `512 · q + n` of the pre-activation is gate `q`'s unit `n`;
    * the spelled-out quotient `1 / (1 + exp (-x))` is `Ideal.logistic x` by definition, the constant's word being one.
-/
import proofs.«150263_j39015482916921_1_alg».proof.Proof.Gen.ReferenceIdeal.Read
import proofs.«150263_j39015482916921_1_alg».proof.Proof.LstmCell
import Idealize.ShloMosaic.Lib.Pipeline.Value
import Idealize.ShloMosaic.Lib.ValueIdx
import Idealize.ShloMosaic.Lib.IdealHost
import Idealize.ShloMosaic.PureOps.Ideal
import Mathlib.Algebra.BigOperators.Fin

noncomputable section

open scoped BigOperators

namespace Cert.ReferenceIdeal.RefValue

open Cert.ReferenceIdeal Cert.ReferenceIdeal.Read Cert.LstmCell
open Idealize.ShloMosaic Idealize.ShloMosaic.ValueIdx

variable (x0 x1 x2 : (⟨S16384x512, .f32⟩ : BufTy).Contents (Elt Ideal))
  (x3 : (⟨S512x1024, .f32⟩ : BufTy).Contents (Elt Ideal)) (x4 : (⟨S512, .f32⟩ : BufTy).Contents (Elt Ideal))
  (x5 : (⟨S512x1024, .f32⟩ : BufTy).Contents (Elt Ideal)) (x6 : (⟨S512, .f32⟩ : BufTy).Contents (Elt Ideal))
  (x7 : (⟨S512x1024, .f32⟩ : BufTy).Contents (Elt Ideal)) (x8 : (⟨S512, .f32⟩ : BufTy).Contents (Elt Ideal))
  (x9 : (⟨S512x1024, .f32⟩ : BufTy).Contents (Elt Ideal)) (x10 : (⟨S512, .f32⟩ : BufTy).Contents (Elt Ideal))

/-! ## The joined array at an index -/

/-- Column `k` of the first half of the joined array is the step's input. -/
theorem joined_left (b : Fin 16384) (k : Fin 512) :
    val_main_v0 (F := Ideal) x0 x1 (ix2 b (Fin.castAdd 512 k)) = x0 (ix2 b k) := by
  unfold val_main_v0
  exact concatenate_pair_apply_left _ x0 x1 _ (ix2 b (Fin.castAdd 512 k)) rfl (ix2 b k)
    (fun a => match a with
      | ⟨0, _⟩ => rfl
      | ⟨1, _⟩ => rfl)

/-- Column `512 + k` of the joined array is the previous hidden state's column `k`. -/
theorem joined_right (b : Fin 16384) (k : Fin 512) :
    val_main_v0 (F := Ideal) x0 x1 (ix2 b (Fin.natAdd 512 k)) = x1 (ix2 b k) := by
  unfold val_main_v0
  exact concatenate_pair_apply_right _ x0 x1 _ (ix2 b (Fin.natAdd 512 k)) rfl rfl (ix2 b k)
    (fun a => match a with
      | ⟨0, _⟩ => fun _ => rfl
      | ⟨1, _⟩ => fun h => absurd rfl h)
    (by show k.val + 512 = 512 + k.val; omega)

/-! ## The contraction's and the bias's indices by coordinates -/

theorem lidx_ix2 (b : Fin 16384) (j : Fin 2048) (k : Fin 1024) : lidx_main_v4 (ix2 b j) k = ix2 b k :=
  funext fun a => Fin.ext (by match a with | ⟨0, _⟩ => rfl | ⟨1, _⟩ => rfl)

theorem ridx_ix2 (b : Fin 16384) (j : Fin 2048) (k : Fin 1024) : idx_main_v3 (ridx_main_v4 (ix2 b j) k) = ix2 j k :=
  funext fun a => Fin.ext (by match a with | ⟨0, _⟩ => rfl | ⟨1, _⟩ => rfl)

theorem bias_ix1 (b : Fin 16384) (j : Fin 2048) : idx_main_v5 (idx_main_v6 (ix2 b j)) = ix1 j :=
  funext fun a => Fin.ext (by match a with | ⟨0, _⟩ => rfl)

/-! ## The pre-activation is the specification's `gate` -/

/-- The reference's matrix product plus bias at row `b`, column `j`: the sum over the 1024 joined columns is the
    sum over the input's 512 plus the sum over the hidden state's 512. -/
theorem pre_eq (b : Fin 16384) (j : Fin 2048) :
    val_main_v7 (F := Ideal) x0 x1 x3 x4 x5 x6 x7 x8 x9 x10 (ix2 b j)
      = gate x0 x1 (val_main_v1 (F := Ideal) x3 x5 x7 x9) (val_main_v2 (F := Ideal) x4 x6 x8 x10) b j := by
  rw [val_main_v7_apply, val_main_v4_apply, val_main_v6_apply, val_main_v5_apply, bias_ix1, Ideal.addf_def]
  unfold gate
  congr 1
  simp only [val_main_v3_apply, lidx_ix2, ridx_ix2]
  refine (Fin.sum_univ_add (a := 512) (b := 512) (fun k : Fin (512 + 512) =>
    val_main_v0 (F := Ideal) x0 x1 (ix2 b k) * val_main_v1 (F := Ideal) x3 x5 x7 x9 (ix2 j k))).trans ?_
  simp only [joined_left, joined_right]
  rfl

/-! ## The four gates' columns of the pre-activation -/

theorem forgetCol_ix2 (b : Fin 16384) (n : Fin 512) : idx_main_v8 (ix2 b n) = ix2 b (gateRow 0 n) :=
  funext fun a => Fin.ext (by
    match a with
    | ⟨0, _⟩ => rfl
    | ⟨1, _⟩ => show n.val = 512 * 0 + n.val; omega)

theorem inputCol_ix2 (b : Fin 16384) (n : Fin 512) : idx_main_v15 (ix2 b n) = ix2 b (gateRow 1 n) :=
  funext fun a => Fin.ext (by
    match a with
    | ⟨0, _⟩ => rfl
    | ⟨1, _⟩ => show 512 + n.val = 512 * 1 + n.val; omega)

theorem candCol_ix2 (b : Fin 16384) (n : Fin 512) : idx_main_v22 (ix2 b n) = ix2 b (gateRow 2 n) :=
  funext fun a => Fin.ext (by
    match a with
    | ⟨0, _⟩ => rfl
    | ⟨1, _⟩ => show 1024 + n.val = 512 * 2 + n.val; omega)

theorem outputCol_ix2 (b : Fin 16384) (n : Fin 512) : idx_main_v24 (ix2 b n) = ix2 b (gateRow 3 n) :=
  funext fun a => Fin.ext (by
    match a with
    | ⟨0, _⟩ => rfl
    | ⟨1, _⟩ => show 1536 + n.val = 512 * 3 + n.val; omega)

/-! ## The spelled-out quotient is the logistic function -/

/-- The word `0x3F800000` denotes one, and `1 / (1 + exp (-x))` is `Ideal.logistic x` by definition. -/
theorem sigmoid_spelled (x : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf x)))
      = Ideal.logistic x := by
  rw [Ideal.ofBits_def, Ideal.ofBits_one_f32]
  rfl

/-! ## The four gates -/

/-- The forget gate. -/
theorem forget_eq (b : Fin 16384) (n : Fin 512) :
    val_main_v14 (F := Ideal) x0 x1 x3 x4 x5 x6 x7 x8 x9 x10 (ix2 b n)
      = Ideal.logistic (gate x0 x1 (val_main_v1 (F := Ideal) x3 x5 x7 x9) (val_main_v2 (F := Ideal) x4 x6 x8 x10) b (gateRow 0 n)) := by
  rw [val_main_v14_apply, val_main_v13_apply, val_main_cst_0_apply, val_main_v12_apply, val_main_v11_apply,
    val_main_cst_apply, val_main_v10_apply, val_main_v9_apply, val_main_v8_apply, forgetCol_ix2, pre_eq, sigmoid_spelled]

/-- The input gate. -/
theorem input_eq (b : Fin 16384) (n : Fin 512) :
    val_main_v21 (F := Ideal) x0 x1 x3 x4 x5 x6 x7 x8 x9 x10 (ix2 b n)
      = Ideal.logistic (gate x0 x1 (val_main_v1 (F := Ideal) x3 x5 x7 x9) (val_main_v2 (F := Ideal) x4 x6 x8 x10) b (gateRow 1 n)) := by
  rw [val_main_v21_apply, val_main_v20_apply, val_main_cst_2_apply, val_main_v19_apply, val_main_v18_apply,
    val_main_cst_1_apply, val_main_v17_apply, val_main_v16_apply, val_main_v15_apply, inputCol_ix2, pre_eq, sigmoid_spelled]

/-- The candidate. -/
theorem cand_eq (b : Fin 16384) (n : Fin 512) :
    val_main_v23 (F := Ideal) x0 x1 x3 x4 x5 x6 x7 x8 x9 x10 (ix2 b n)
      = Ideal.tanh (gate x0 x1 (val_main_v1 (F := Ideal) x3 x5 x7 x9) (val_main_v2 (F := Ideal) x4 x6 x8 x10) b (gateRow 2 n)) := by
  rw [val_main_v23_apply, val_main_v22_apply, candCol_ix2, pre_eq, Ideal.hostUnary_tanh_def]

/-- The output gate. -/
theorem output_eq (b : Fin 16384) (n : Fin 512) :
    val_main_v30 (F := Ideal) x0 x1 x3 x4 x5 x6 x7 x8 x9 x10 (ix2 b n)
      = Ideal.logistic (gate x0 x1 (val_main_v1 (F := Ideal) x3 x5 x7 x9) (val_main_v2 (F := Ideal) x4 x6 x8 x10) b (gateRow 3 n)) := by
  rw [val_main_v30_apply, val_main_v29_apply, val_main_cst_4_apply, val_main_v28_apply, val_main_v27_apply,
    val_main_cst_3_apply, val_main_v26_apply, val_main_v25_apply, val_main_v24_apply, outputCol_ix2, pre_eq, sigmoid_spelled]

/-! ## The two results -/

/-- The reference's next cell state at row `b`, unit `n`. -/
theorem cell_at (b : Fin 16384) (n : Fin 512) :
    val_main_v33 (F := Ideal) x0 x1 x2 x3 x4 x5 x6 x7 x8 x9 x10 (ix2 b n)
      = cellNext x0 x1 x2 (val_main_v1 (F := Ideal) x3 x5 x7 x9) (val_main_v2 (F := Ideal) x4 x6 x8 x10) b n := by
  unfold cellNext
  rw [val_main_v33_apply, val_main_v31_apply, val_main_v32_apply, forget_eq, input_eq, cand_eq, Ideal.addf_def,
    Ideal.mulf_def, Ideal.mulf_def]

/-- The reference's next hidden state at row `b`, unit `n`. -/
theorem hidden_at (b : Fin 16384) (n : Fin 512) :
    val_main_v35 (F := Ideal) x0 x1 x2 x3 x4 x5 x6 x7 x8 x9 x10 (ix2 b n)
      = hiddenNext x0 x1 x2 (val_main_v1 (F := Ideal) x3 x5 x7 x9) (val_main_v2 (F := Ideal) x4 x6 x8 x10) b n := by
  unfold hiddenNext
  rw [val_main_v35_apply, val_main_v34_apply, output_eq, cell_at, Ideal.hostUnary_tanh_def, Ideal.mulf_def]

/-- The reference's next cell state is the specification's. -/
theorem cell_eq :
    val_main_v33 (F := Ideal) x0 x1 x2 x3 x4 x5 x6 x7 x8 x9 x10
      = cellArr x0 x1 x2 (val_main_v1 (F := Ideal) x3 x5 x7 x9) (val_main_v2 (F := Ideal) x4 x6 x8 x10) := by
  funext i
  obtain ⟨b, n, rfl⟩ : ∃ (b : Fin 16384) (n : Fin 512), i = ix2 b n := ⟨i 0, i 1, eq_ix2 i⟩
  rw [cellArr_ix2]
  exact cell_at x0 x1 x2 x3 x4 x5 x6 x7 x8 x9 x10 b n

/-- The reference's next hidden state is the specification's. -/
theorem hidden_eq :
    val_main_v35 (F := Ideal) x0 x1 x2 x3 x4 x5 x6 x7 x8 x9 x10
      = hiddenArr x0 x1 x2 (val_main_v1 (F := Ideal) x3 x5 x7 x9) (val_main_v2 (F := Ideal) x4 x6 x8 x10) := by
  funext i
  obtain ⟨b, n, rfl⟩ : ∃ (b : Fin 16384) (n : Fin 512), i = ix2 b n := ⟨i 0, i 1, eq_ix2 i⟩
  rw [hiddenArr_ix2]
  exact hidden_at x0 x1 x2 x3 x4 x5 x6 x7 x8 x9 x10 b n

end Cert.ReferenceIdeal.RefValue

end
-- ==== Proof.lean ====
/-
  One step of an LSTM cell, tiled over the batch by a kernel, against the same step written with whole-array operations.

  Both programs stack the four gates' weights into one [2048, 1024] matrix and their biases into one vector. The
  reference joins the step's input and the previous hidden state side by side and multiplies by the transposed stack;
  the kernel multiplies the input by the stack's transposed input half and the hidden state by its transposed recurrent
  half, batch tile by batch tile, and adds. Over the extended reals the narrowing of the kernel's operands to a short
  format is the identity and a sum over 1024 positions is the sum over the first 512 plus the sum over the last 512
  (addition there is commutative and associative, so no finiteness is used); the kernel's one-operation sigmoid IS the
  reference's spelled-out `1 / (1 + e^(-x))`. So both result pairs are the functions `hiddenArr` and `cellArr` of
  Proof/LstmCell.lean of the launch contents: the kernel's by Proof/KernelIdealValue.lean (the region's run, tile by
  tile), the reference's by Proof/ReferenceValue.lean (its run read one operation at a time). Each kernel program's
  frame is its region's run read at the arguments, which nothing writes; the reference's is its run with the results
  dropped. The idealization rewrote nothing, so what it must preserve is nothing.
-/
import proofs.«150263_j39015482916921_1_alg».proof.Defs
import proofs.«150263_j39015482916921_1_alg».proof.Proof.Gen.Kernel
import proofs.«150263_j39015482916921_1_alg».proof.Proof.Gen.Kernel.Skeleton
import proofs.«150263_j39015482916921_1_alg».proof.Proof.Gen.Kernel.Launch
import proofs.«150263_j39015482916921_1_alg».proof.Proof.Gen.Kernel.Points
import proofs.«150263_j39015482916921_1_alg».proof.Proof.Gen.KernelIdeal
import proofs.«150263_j39015482916921_1_alg».proof.Proof.Gen.KernelIdeal.Skeleton
import proofs.«150263_j39015482916921_1_alg».proof.Proof.Gen.KernelIdeal.Launch
import proofs.«150263_j39015482916921_1_alg».proof.Proof.Gen.KernelIdeal.Points
import proofs.«150263_j39015482916921_1_alg».proof.Proof.Gen.ReferenceIdeal
import proofs.«150263_j39015482916921_1_alg».proof.Proof.Gen.ReferenceIdeal.Run
import proofs.«150263_j39015482916921_1_alg».proof.Proof.Gen.ReferenceIdeal.Read
import proofs.«150263_j39015482916921_1_alg».proof.Proof.Gen.Pre_finite_inputs
import proofs.«150263_j39015482916921_1_alg».proof.Proof.KernelRun
import proofs.«150263_j39015482916921_1_alg».proof.Proof.KernelIdealValue
import proofs.«150263_j39015482916921_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_kernel : Cert.frame_Kernel := fun m ρ _ => Cert.Kernel.Cell.frame m ρ

/-- So does its idealization. -/
theorem frame_kernelIdeal : Cert.frame_KernelIdeal := fun m ρ _ => Cert.KernelIdeal.Cell.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the next hidden state and the next cell state of
    the cell step of those arguments: the kernel's run read tile by tile, the reference's read operation by operation. -/
theorem algebraic : Cert.algebraic_KernelIdeal_ReferenceIdeal := by
  intro m ρ m' ρ' _ hagree
  refine ⟨fun c => Cert.LstmCell.hiddenArr (Cert.KernelIdeal.CellValue.xArr m c) (Cert.KernelIdeal.CellValue.hArr m c) (Cert.KernelIdeal.CellValue.cArr m c) (Cert.KernelIdeal.CellValue.wStack m c) (Cert.KernelIdeal.CellValue.bStack m c),
    fun c => Cert.LstmCell.cellArr (Cert.KernelIdeal.CellValue.xArr m c) (Cert.KernelIdeal.CellValue.hArr m c) (Cert.KernelIdeal.CellValue.cArr m c) (Cert.KernelIdeal.CellValue.wStack m c) (Cert.KernelIdeal.CellValue.bStack m c),
    Cert.KernelIdeal.CellValue.run m ρ, ?_⟩
  refine (θ_run Cert.ReferenceIdeal.defs _ _).mono (fun r h c => ?_) (Cert.ReferenceIdeal.Value.run (F := Ideal) m' ρ')
  obtain ⟨hHidden, hCell, hArgs⟩ := h c
  obtain ⟨a0, a1, a2, a3, a4, a5, a6, a7, a8, a9, a10⟩ := hagree c
  refine ⟨?_, ?_, hArgs⟩
  · rw [hHidden, Cert.ReferenceIdeal.Read.val_main_v35_eq, Cert.ReferenceIdeal.RefValue.hidden_eq, a0, a1, a2, a3, a4, a5, a6, a7, a8, a9, a10]
    rfl
  · rw [hCell, Cert.ReferenceIdeal.Read.val_main_v33_eq, Cert.ReferenceIdeal.RefValue.cell_eq, a0, a1, a2, a3, a4, a5, a6, a7, a8, a9, a10]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
